-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x2048 : Shape := ⟨2, ![16384, 2048]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S4x2048x4096 .f32) (main_arg1 : IVec S16384x2048 32) (main_arg2 : FVec F S16384 .f32) (main_arg3 : FVec F S16384 .f32) (main_arg4 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S16384 .f32 := Host.absf main_arg4
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S4x2048x4096 : Shape := ⟨3, ![4, 2048, 4096]⟩
abbrev S16384x2048 : Shape := ⟨2, ![16384, 2048]⟩
abbrev S16384 : Shape := ⟨1, ![16384]⟩
abbrev S_ : Shape := ⟨0, ![]⟩
abbrev S16384x2048x1 : Shape := ⟨3, ![16384, 2048, 1]⟩
abbrev S16384x2048x2 : Shape := ⟨3, ![16384, 2048, 2]⟩
abbrev S16384x4096 : Shape := ⟨2, ![16384, 4096]⟩
abbrev S16384x1 : Shape := ⟨2, ![16384, 1]⟩
abbrev S8192x4096 : Shape := ⟨2, ![8192, 4096]⟩
abbrev S8192x16384 : Shape := ⟨2, ![8192, 16384]⟩
abbrev S1024x4096 : Shape := ⟨2, ![1024, 4096]⟩
abbrev S512x4096 : Shape := ⟨2, ![512, 4096]⟩
abbrev S512 : Shape := ⟨1, ![512]⟩
abbrev S1024x512 : Shape := ⟨2, ![1024, 512]⟩
abbrev S1x512 : Shape := ⟨2, ![1, 512]⟩
abbrev S4x2048x16384 : Shape := ⟨3, ![4, 2048, 16384]⟩

abbrev nBuf : Space → Nat
  | .hbm => 31
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S16384x2048, .i32⟩
  | .hbm, ⟨2, _⟩ => ⟨S16384, .f32⟩
  | .hbm, ⟨3, _⟩ => ⟨S16384, .f32⟩
  | .hbm, ⟨4, _⟩ => ⟨S16384, .f32⟩
  | .hbm, ⟨5, _⟩ => ⟨S_, .i32⟩
  | .hbm, ⟨6, _⟩ => ⟨S16384x2048, .i32⟩
  | .hbm, ⟨7, _⟩ => ⟨S16384x2048, .i32⟩
  | .hbm, ⟨8, _⟩ => ⟨S16384x2048, .f32⟩
  | .hbm, ⟨9, _⟩ => ⟨S_, .i32⟩
  | .hbm, ⟨10, _⟩ => ⟨S16384x2048, .i32⟩
  | .hbm, ⟨11, _⟩ => ⟨S16384x2048, .i32⟩
  | .hbm, ⟨12, _⟩ => ⟨S_, .i32⟩
  | .hbm, ⟨13, _⟩ => ⟨S16384x2048, .i32⟩
  | .hbm, ⟨14, _⟩ => ⟨S16384x2048, .i32⟩
  | .hbm, ⟨15, _⟩ => ⟨S16384x2048, .f32⟩
  | .hbm, ⟨16, _⟩ => ⟨S16384x2048x1, .f32⟩
  | .hbm, ⟨17, _⟩ => ⟨S16384x2048x1, .f32⟩
  | .hbm, ⟨18, _⟩ => ⟨S16384x2048x2, .f32⟩
  | .hbm, ⟨19, _⟩ => ⟨S16384x4096, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S16384x4096, .bf16⟩
  | .hbm, ⟨27, _⟩ => ⟨S8192x4096, .f32⟩
  | .hbm, ⟨28, _⟩ => ⟨S8192x4096, .bf16⟩
  | .hbm, ⟨29, _⟩ => ⟨S8192x16384, .f32⟩
  | .hbm, ⟨30, _⟩ => ⟨S4x2048x16384, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S512, .f32⟩
  | .local _ .vmem, ⟨5, _⟩ => ⟨S512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16384x2048 : S_.BroadcastsInDim S16384x2048 (![] : Fin 0 → Fin S16384x2048.rank)
  bcast_S16384x2048_S16384x2048x1_0_1 : S16384x2048.BroadcastsInDim S16384x2048x1 (![0, 1] : Fin 2 → Fin S16384x2048x1.rank)
  concatenates_S16384x2048x1_S16384x2048x1_S16384x2048x2_d2 : Shape.Concatenates [S16384x2048x1, S16384x2048x1] S16384x2048x2 2
  shapeCasts_S16384x2048x2_S16384x4096 : S16384x2048x2.ShapeCasts S16384x4096
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bitsLt_bf16_f32 : FTy.bits .bf16 < FTy.bits .f32
  shapeCasts_S4x2048x4096_S8192x4096 : S4x2048x4096.ShapeCasts S8192x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S16384.size a
  hwx0_2 : ∀ i : grid0.Coords, EltTy.bits .f32 = 32 ∨ (Rect.block (s := S16384) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x16384.size a
  hwx0_3 : ∀ i : grid0.Coords, EltTy.bits .f32 = 32 ∨ (Rect.block (s := S8192x16384) S1024x512.size (cc0_transform_3 i) (hinb0_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v20) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x2048 : Shape := ⟨2, ![16384, 2048]⟩
abbrev S16384 : Shape := ⟨1, ![16384]⟩
abbrev S_ : Shape := ⟨0, ![]⟩
abbrev S16384x2048x1 : Shape := ⟨3, ![16384, 2048, 1]⟩
abbrev S16384x2048x2 : Shape := ⟨3, ![16384, 2048, 2]⟩
abbrev S16384x4096 : Shape := ⟨2, ![16384, 4096]⟩
abbrev S16384x1 : Shape := ⟨2, ![16384, 1]⟩
abbrev S4x2048x16384 : Shape := ⟨3, ![4, 2048, 16384]⟩
abbrev S1x1x16384 : Shape := ⟨3, ![1, 1, 16384]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x2048, .i32⟩
  | .hbm, ⟨2, _⟩ => ⟨S16384, .f32⟩
  | .hbm, ⟨3, _⟩ => ⟨S16384, .f32⟩
  | .hbm, ⟨4, _⟩ => ⟨S16384, .f32⟩
  | .hbm, ⟨5, _⟩ => ⟨S_, .i32⟩
  | .hbm, ⟨6, _⟩ => ⟨S16384x2048, .i32⟩
  | .hbm, ⟨7, _⟩ => ⟨S16384x2048, .i32⟩
  | .hbm, ⟨8, _⟩ => ⟨S16384x2048, .f32⟩
  | .hbm, ⟨9, _⟩ => ⟨S_, .i32⟩
  | .hbm, ⟨10, _⟩ => ⟨S16384x2048, .i32⟩
  | .hbm, ⟨11, _⟩ => ⟨S16384x2048, .i32⟩
  | .hbm, ⟨12, _⟩ => ⟨S_, .i32⟩
  | .hbm, ⟨13, _⟩ => ⟨S16384x2048, .i32⟩
  | .hbm, ⟨14, _⟩ => ⟨S16384x2048, .i32⟩
  | .hbm, ⟨15, _⟩ => ⟨S16384x2048, .f32⟩
  | .hbm, ⟨16, _⟩ => ⟨S16384x2048x1, .f32⟩
  | .hbm, ⟨17, _⟩ => ⟨S16384x2048x1, .f32⟩
  | .hbm, ⟨18, _⟩ => ⟨S16384x2048x2, .f32⟩
  | .hbm, ⟨19, _⟩ => ⟨S16384x4096, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S4x2048x16384, .f32⟩
  | .hbm, ⟨27, _⟩ => ⟨S1x1x16384, .f32⟩
  | .hbm, ⟨28, _⟩ => ⟨S4x2048x16384, .f32⟩
  | .hbm, ⟨29, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  bcast_S16384x2048_S16384x2048x1_0_1 : S16384x2048.BroadcastsInDim S16384x2048x1 (![0, 1] : Fin 2 → Fin S16384x2048x1.rank)
  concatenates_S16384x2048x1_S16384x2048x1_S16384x2048x2_d2 : Shape.Concatenates [S16384x2048x1, S16384x2048x1] S16384x2048x2 2
  shapeCasts_S16384x2048x2_S16384x4096 : S16384x2048x2.ShapeCasts S16384x4096
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.BodyValue.lean ====
/-
  One grid point of the kernel, as arithmetic on the extended reals.

  The body loads a [1024, 4096] block of activations, a [512, 4096] block of weights and a [512] block of biases, contracts the
  two matrices over their last axes into a zero accumulator and adds the bias row to every row of the product.  Entry (p, q) of
  what it stores is therefore  Σ_k x[p, k] · w[q, k] + b[q] : the contraction's sum starts from the zero word, which is the real
  zero, and the bias vector is first viewed as one row and then repeated down the rows.
-/
import proofs.«414579_j7112465842827_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Body

open Cert.KernelIdeal Cert.KernelIdeal.Gen

/-- The left operand is read at the output's row. -/
theorem lhs_row (j : S1024x512.Idx) (q : dot_S1024x4096_S512x4096_S1024x512_1_1_0_0_n_n.contr.Idx) :
    (dot_S1024x4096_S512x4096_S1024x512_1_1_0_0_n_n.lhsIdx j q 0).val = (j 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
/-- Its column is the summation index. -/
theorem lhs_col (j : S1024x512.Idx) (q : dot_S1024x4096_S512x4096_S1024x512_1_1_0_0_n_n.contr.Idx) :
    (dot_S1024x4096_S512x4096_S1024x512_1_1_0_0_n_n.lhsIdx j q 1).val = (q ⟨0, by decide⟩).val :=
  dot_S1024x4096_S512x4096_S1024x512_1_1_0_0_n_n.lhsIdx_val_of_single rfl j q
/-- The right operand is read at the row named by the output's column. -/
theorem rhs_row (j : S1024x512.Idx) (q : dot_S1024x4096_S512x4096_S1024x512_1_1_0_0_n_n.contr.Idx) :
    (dot_S1024x4096_S512x4096_S1024x512_1_1_0_0_n_n.rhsIdx j q 0).val = (j 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
/-- Its column is the summation index too. -/
theorem rhs_col (j : S1024x512.Idx) (q : dot_S1024x4096_S512x4096_S1024x512_1_1_0_0_n_n.contr.Idx) :
    (dot_S1024x4096_S512x4096_S1024x512_1_1_0_0_n_n.rhsIdx j q 1).val = (q ⟨0, by decide⟩).val :=
  dot_S1024x4096_S512x4096_S1024x512_1_1_0_0_n_n.rhsIdx_val_of_single rfl j q

/-- The block product into a zero accumulator, entry (p, q): the plain sum over the 4096 shared columns. -/
theorem blockProduct_apply (x : FVec Ideal S1024x4096 .bf16) (w : FVec Ideal S512x4096 .bf16) (p : Fin 1024) (q : Fin 512) :
    matmul (F := Ideal) dot_S1024x4096_S512x4096_S1024x512_1_1_0_0_n_n none x w (constant (F := Ideal) S1024x512 .f32 0x00000000#32) (ix2 p q)
      = ∑ k : Fin 4096, x (ix2 p k) * w (ix2 q k) := by
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 p q) ((contrEquiv1 dot_S1024x4096_S512x4096_S1024x512_1_1_0_0_n_n 4096 rfl rfl).symm k) = ix2 p k := funext fun a => Fin.ext (by
    match a with
    | ⟨0, _⟩ => exact lhs_row _ _
    | ⟨1, _⟩ => exact (lhs_col _ _).trans hk)
  have er : dot_S1024x4096_S512x4096_S1024x512_1_1_0_0_n_n.rhsIdx (ix2 p q) ((contrEquiv1 dot_S1024x4096_S512x4096_S1024x512_1_1_0_0_n_n 4096 rfl rfl).symm k) = ix2 q k := funext fun a => Fin.ext (by
    match a with
    | ⟨0, _⟩ => exact rhs_row _ _
    | ⟨1, _⟩ => exact (rhs_col _ _).trans hk)
  rw [el, er]

/-- What the body stores, entry (p, q):  Σ_k x[p, k] · w[q, k] + b[q]. -/
theorem stored_apply (x : Vec Ideal S1024x4096 .bf16) (w : Vec Ideal S512x4096 .bf16) (b : Vec Ideal S512 .f32) (p : Fin 1024) (q : Fin 512) :
    k0_pay1 (F := Ideal) x w b (ix2 p q) = (∑ k : Fin 4096, x (ix2 p k) * w (ix2 q k)) + b (ix1 q) := by
  unfold k0_pay1
  rw [addf_apply, shapeCast_self, shapeCast_self, blockProduct_apply, broadcastTo_1b_ab_apply, shapeCast_a_1a_apply]

/-- The same entry when the three blocks are known to be parts of whole arrays X, W, B: row p of the activations' block is row r
    of X, row q of the weights' block is row o of W, entry q of the bias's block is entry o of B. -/
theorem stored_of_parts (x : Vec Ideal S1024x4096 .bf16) (w : Vec Ideal S512x4096 .bf16) (b : Vec Ideal S512 .f32)
    (X : S8192x4096.Idx → EReal) (W : S16384x4096.Idx → EReal) (B : S16384.Idx → EReal)
    (p : Fin 1024) (q : Fin 512) (r : Fin 8192) (o : Fin 16384)
    (hx : ∀ k : Fin 4096, x (ix2 p k) = X (ix2 r k)) (hw : ∀ k : Fin 4096, w (ix2 q k) = W (ix2 o k)) (hb : b (ix1 q) = B (ix1 o)) :
    k0_pay1 (F := Ideal) x w b (ix2 p q) = (∑ k : Fin 4096, X (ix2 r k) * W (ix2 o k)) + B (ix1 o) := by
  rw [stored_apply, hb]
  exact congrArg (· + B (ix1 o)) (Finset.sum_congr rfl fun k _ => by rw [hx k, hw k])

end Cert.KernelIdeal.Body

end
-- ==== Proof.Affine.lean ====
/-
  The function both programs compute, on the extended reals: a batch of sequences of 4096-vectors sent through one affine map,

      affine x W b [s, t, o]  =  Σ_k x[s, t, k] · W[o, k]  +  b[o] ,

  with x of shape [4, 2048, 4096], the weight matrix W of shape [16384, 4096] stored output-major, and the bias b of length
  16384.  The kernel works on the activations with the first two axes run together into 8192 rows; that is the same function
  read at row  s · 2048 + t  (rowsOf_affineRows).
-/
import Idealize.ShloMosaic.PureOps.Ideal
import Idealize.ShloMosaic.Lib.ValueIdx

noncomputable section

open Idealize.ShloMosaic Idealize.ShloMosaic.ValueIdx
open scoped BigOperators

namespace Cert.Affine

/-- The affine map over a [4, 2048] batch of vectors. -/
def affine (x : (⟨3, ![4, 2048, 4096]⟩ : Shape).Idx → EReal) (W : (⟨2, ![16384, 4096]⟩ : Shape).Idx → EReal)
    (b : (⟨1, ![16384]⟩ : Shape).Idx → EReal) : (⟨3, ![4, 2048, 16384]⟩ : Shape).Idx → EReal :=
  fun i => (∑ k : Fin 4096, x (ix3 (i 0) (i 1) k) * W (ix2 (i 2) k)) + b (ix1 (i 2))

/-- The affine map over 8192 rows. -/
def affineRows (X : (⟨2, ![8192, 4096]⟩ : Shape).Idx → EReal) (W : (⟨2, ![16384, 4096]⟩ : Shape).Idx → EReal)
    (b : (⟨1, ![16384]⟩ : Shape).Idx → EReal) : (⟨2, ![8192, 16384]⟩ : Shape).Idx → EReal :=
  fun i => (∑ k : Fin 4096, X (ix2 (i 0) k) * W (ix2 (i 1) k)) + b (ix1 (i 1))

/-- If the rows X are the batch x with its first two axes run together, row  s · 2048 + t  of the row form is entry (s, t) of
    the batch form. -/
theorem affineRows_of_rows (x : (⟨3, ![4, 2048, 4096]⟩ : Shape).Idx → EReal) (X : (⟨2, ![8192, 4096]⟩ : Shape).Idx → EReal)
    (W : (⟨2, ![16384, 4096]⟩ : Shape).Idx → EReal) (b : (⟨1, ![16384]⟩ : Shape).Idx → EReal)
    (hX : ∀ (s : Fin 4) (t : Fin 2048) (r : Fin 8192) (k : Fin 4096), r.val = s.val * 2048 + t.val → X (ix2 r k) = x (ix3 s t k))
    (s : Fin 4) (t : Fin 2048) (o : Fin 16384) (r : Fin 8192) (hr : r.val = s.val * 2048 + t.val) :
    affineRows X W b (ix2 r o) = affine x W b (ix3 s t o) := by
  unfold affineRows affine
  show (∑ k : Fin 4096, X (ix2 r k) * W (ix2 o k)) + b (ix1 o) = (∑ k : Fin 4096, x (ix3 s t k) * W (ix2 o k)) + b (ix1 o)
  congr 1
  exact Finset.sum_congr rfl fun k _ => by rw [hX s t r k hr]

end Cert.Affine

end
-- ==== Proof.KernelValue.lean ====
/-
  What the kernel's program leaves in its result, on the extended reals.

  The region runs over an 8 × 32 grid.  At point (u, v) it is given rows 1024·u … 1024·u + 1023 of the activations (all 4096
  columns), rows 512·v … 512·v + 511 of the weights and entries 512·v … 512·v + 511 of the bias, and writes back block (u, v) of
  the [8192, 16384] result.  By the body's arithmetic that block is the block of ONE function of the three whole arrays — the
  affine map over 8192 rows — so, the 256 blocks tiling the result, the result is that function.  Before the region the host
  flattens the activations' first two axes and computes the weights; after it, it splits the 8192 rows back into [4, 2048].
  A change of float format is the identity here.
-/
import proofs.«414579_j7112465842827_1_alg».proof.Proof.Gen.KernelIdeal.Frame
import proofs.«414579_j7112465842827_1_alg».proof.Proof.BodyValue
import proofs.«414579_j7112465842827_1_alg».proof.Proof.Affine
import Idealize.ShloMosaic.Lib.Pipeline.Value
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Whole

open Cert.KernelIdeal Cert.KernelIdeal.Gen Cert.Affine

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-! ## Which blocks a grid point is given -/

/-- At every point: the activations' block row is the result's block row, the weights' and the bias's block index is the
    result's block column, the two matrices are taken at full width, and the result's block indices stay inside 8 × 32. -/
theorem blocks_at : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 1) = win0_3.index t (1 : Fin 2)
    ∧ win0_3.index t (0 : Fin 2) ≤ 7 ∧ win0_3.index t (1 : Fin 2) ≤ 31 :=
  (by decide +kernel : ∀ t : Fin grid0.N, _)

/-- Every block of the 8 × 32 tiling is some point's. -/
theorem block_of_some_point : ∀ (u : Fin 8) (v : Fin 32), ∃ t : Fin cfg0.N, win0_3.index t = ![u.val, v.val] :=
  (by decide +kernel : ∀ (u : Fin 8) (v : Fin 32), ∃ t : Fin grid0.N, win0_3.index t = ![u.val, v.val])

/-! ## The arrays the region finds -/

/-- The activations as rows, the weights and the bias, as the region finds them. -/
abbrev rows (c : Dev nD) : S8192x4096.Idx → EReal := V m c main_v20
abbrev wts (c : Dev nD) : S16384x4096.Idx → EReal := V m c main_v18
abbrev bias (c : Dev nD) : S16384.Idx → EReal := V m c main_arg4

/-- Entry (p, k) of the activations' block at point t is entry (1024·u + p, k) of the rows, u the result's block row. -/
theorem rows_block (c : Dev nD) (t : Fin cfg0.N) (p : Fin 1024) (k : Fin 4096) (i : S8192x4096.Idx)
    (h0 : (i 0).val = win0_3.index t (0 : Fin 2) * 1024 + p.val) (h1 : (i 1).val = k.val) :
    (iblk m c 0 t : Vec Ideal S1024x4096 .bf16) (ix2 p k) = rows m c i := by
  obtain ⟨e0, e1, -, -, -, -, -⟩ := blocks_at t
  unfold iblk
  rw [View.read_apply]
  show V m c main_v20 _ = V m c main_v20 _
  congr 1
  funext a
  apply Fin.ext
  match a with
  | ⟨0, _⟩ => show win0_0.index t (0 : Fin 2) * 1024 + 1 * p.val = (i 0).val; rw [e0, h0]; omega
  | ⟨1, _⟩ => show win0_0.index t (1 : Fin 2) * 4096 + 1 * k.val = (i 1).val; rw [e1, h1]; omega

/-- Entry (q, k) of the weights' block at point t is entry (512·v + q, k) of the weights, v the result's block column. -/
theorem wts_block (c : Dev nD) (t : Fin cfg0.N) (q : Fin 512) (k : Fin 4096) (i : S16384x4096.Idx)
    (h0 : (i 0).val = win0_3.index t (1 : Fin 2) * 512 + q.val) (h1 : (i 1).val = k.val) :
    (iblk m c 1 t : Vec Ideal S512x4096 .bf16) (ix2 q k) = wts m c i := by
  obtain ⟨-, -, e2, e3, -, -, -⟩ := blocks_at t
  unfold iblk
  rw [View.read_apply]
  show V m c main_v18 _ = V m c main_v18 _
  congr 1
  funext a
  apply Fin.ext
  match a with
  | ⟨0, _⟩ => show win0_1.index t (0 : Fin 2) * 512 + 1 * q.val = (i 0).val; rw [e2, h0]; omega
  | ⟨1, _⟩ => show win0_1.index t (1 : Fin 2) * 4096 + 1 * k.val = (i 1).val; rw [e3, h1]; omega

/-- Entry q of the bias's block at point t is entry 512·v + q of the bias. -/
theorem bias_block (c : Dev nD) (t : Fin cfg0.N) (q : Fin 512) (i : S16384.Idx)
    (h0 : (i 0).val = win0_3.index t (1 : Fin 2) * 512 + q.val) :
    (iblk m c 2 t : Vec Ideal S512 .f32) (ix1 q) = bias m c i := by
  obtain ⟨-, -, -, -, e4, -, -⟩ := blocks_at t
  unfold iblk
  rw [View.read_apply]
  show V m c main_arg4 _ = V m c main_arg4 _
  congr 1
  funext a
  apply Fin.ext
  match a with
  | ⟨0, _⟩ => show win0_2.index t (0 : Fin 1) * 512 + 1 * q.val = (i 0).val; rw [e4, h0]; omega

/-! ## What a point writes back -/

/-- Entry y of what the body stores at point t is the affine map over the rows at the entry of the result that y's place in
    block (u, v) names. -/
theorem stored_entry (c : Dev nD) (t : Fin cfg0.N) (y : S1024x512.Idx) (i : S8192x16384.Idx)
    (h0 : (i 0).val = win0_3.index t (0 : Fin 2) * 1024 + (y 0).val) (h1 : (i 1).val = win0_3.index t (1 : Fin 2) * 512 + (y 1).val) :
    k0_pay1 (F := Ideal) (iblk m c 0 t) (iblk m c 1 t) (iblk m c 2 t) y = affineRows (rows m c) (wts m c) (bias m c) i := by
  obtain ⟨p, q, rfl⟩ : ∃ (p : Fin 1024) (q : Fin 512), y = ix2 p q := ⟨y 0, y 1, eq_ix2 y⟩
  unfold affineRows
  exact Body.stored_of_parts (iblk m c 0 t) (iblk m c 1 t) (iblk m c 2 t) (rows m c) (wts m c) (bias m c) p q (i 0) (i 1)
    (fun k => rows_block m c t p k (ix2 (i 0) k) h0 rfl) (fun k => wts_block m c t q k (ix2 (i 1) k) h1 rfl)
    (bias_block m c t q (ix1 (i 1)) h1)

/-- Point t writes back its block of the affine map over the rows. -/
theorem written_back (c : Dev nD) (t : Fin cfg0.N) :
    (dats m 0 c).flushed 3 t = ((cfg0.win 3).blk t).view.read (Elt Ideal) (affineRows (rows m c) (wts m c) (bias m c)) := by
  show (cfg0.win 3).cut (grid0.coords t) ((dats m 0 c).after 3 t) = _
  rw [after0_3]
  unfold out0_3
  rw [View.canon_unit_zero zero2]
  simp only [View.ld_unit_zero (S := S1024x4096) zero2, View.ld_unit_zero (S := S512x4096) zero2, View.ld_unit_zero (S := S512) zero1]
  funext j
  rw [View.read_apply]
  refine stored_entry m c t ((cfg0.win 3).xinj (grid0.coords t) j) (((cfg0.win 3).blk t).view.emb j) ?_ ?_
  · show win0_3.index t (0 : Fin 2) * 1024 + 1 * (j 0).val = win0_3.index t (0 : Fin 2) * 1024 + (j 0).val; omega
  · show win0_3.index t (1 : Fin 2) * 512 + 1 * (j 1).val = win0_3.index t (1 : Fin 2) * 512 + (j 1).val; omega

/-! ## The blocks tile the result -/

theorem in_block (t : Fin cfg0.N) (i : S8192x16384.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v21).slice (win0_3.rect t)).set ↔ _
  rw [View.set_slice_whole, Rect.mem_set_unit]
  exact Iff.rfl

/-- Entry (r, o) lies in block (r / 1024, o / 512). -/
theorem tiled (i : S8192x16384.Idx) : ∃ t : Fin cfg0.N, (cfg0.win 3).flush t = true ∧ i ∈ ((cfg0.win 3).blk t).view.set := by
  have hi0 : (i 0).val < 8192 := (i 0).isLt
  have hi1 : (i 1).val < 16384 := (i 1).isLt
  obtain ⟨t, ht⟩ := block_of_some_point ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [in_block]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The region's result array after the run: the affine map over the rows. -/
theorem region_result (c : Dev nD) : (dats m 0 c).arrAt 3 cfg0.N = affineRows (rows m c) (wts m c) (bias m c) :=
  (dats m 0 c).arrAt_eq_of_cover 3 _ (fun t _ => written_back m c t) tiled

end Cert.KernelIdeal.Whole

end
-- ==== Proof.KernelResult.lean ====
/-
  The kernel's program from end to end, on the extended reals.

  Around the region the host does three things.  It runs the activations' first two axes together: row  s · 2048 + t  of the
  8192 rows is vector (s, t) of the batch.  It computes the weights from the packed words, the scales and the zero points, by the
  same operations in the same order as the reference (the function weights below is that chain, never opened here).  And after
  the region it splits the 8192 rows of the result back into [4, 2048].  The changes of float format in between are the
  identity.  So the program's result is the affine map of the batch under those weights.
-/
import proofs.«414579_j7112465842827_1_alg».proof.Proof.KernelValue

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Whole

open Cert.KernelIdeal Cert.KernelIdeal.Gen Cert.Affine

/-- The weights the host computes: each packed word gives two 4-bit fields (the low one first), laid side by side along the
    row; each row is scaled by its scale and shifted by its zero point. -/
def weights {F : FTy → Type} [FloatOps F] (x1 : (⟨S16384x2048, .i32⟩ : BufTy).Contents (Elt F)) (x2 x3 : (⟨S16384, .f32⟩ : BufTy).Contents (Elt F)) :
    (⟨S16384x4096, .f32⟩ : BufTy).Contents (Elt F) :=
  addf (mulf (shapeCast _ (concatenate S16384x2048x2 2 [⟨S16384x2048x1, (broadcastInDim S16384x2048x1 ![0, 1] bcast_S16384x2048_S16384x2048x1_0_1 (sitofp .f32 (andi (x1) (broadcastInDim S16384x2048 ![] bcast_S_S16384x2048 (constantI S_ 32 15#32)))))⟩, ⟨S16384x2048x1, (broadcastInDim S16384x2048x1 ![0, 1] bcast_S16384x2048_S16384x2048x1_0_1 (sitofp .f32 (andi (Host.shrsi (x1) (broadcastInDim S16384x2048 ![] bcast_S_S16384x2048 (constantI S_ 32 4#32))) (broadcastInDim S16384x2048 ![] bcast_S_S16384x2048 (constantI S_ 32 15#32)))))⟩] concatenates_S16384x2048x1_S16384x2048x1_S16384x2048x2_d2) shapeCasts_S16384x2048x2_S16384x4096) (broadcastInDim S16384x4096 ![0, 1] bcast_S16384x1_S16384x4096_0_1 (broadcastInDim S16384x1 ![0] bcast_S16384_S16384x1_0 (x2)))) (broadcastInDim S16384x4096 ![0, 1] bcast_S16384x1_S16384x4096_0_1 (broadcastInDim S16384x1 ![0] bcast_S16384_S16384x1_0 (x3)))

variable (m : (ℓ : Loc nD τ sig) → Buf (Elt Ideal) ℓ) (ρ : Dev nD → PrngReg)

/-- The batch, the packed words, the scales, the zero points and the bias, as launched. -/
abbrev batch (c : Dev nD) : S4x2048x4096.Idx → EReal := m ((c : Thread nD τ).loc main_arg0)

/-! ## What the host hands the region -/

/-- The rows are the batch with its first two axes run together (the change to the narrower format is the identity). -/
theorem rows_eq (c : Dev nD) : rows m c = shapeCast S8192x4096 (batch m c) shapeCasts_S4x2048x4096_S8192x4096 := by
  show StableHlo.after hostOps0 (fun b => m (c, b)) (Proc.devRef .tc main_v20) = _
  after_results
  rfl

/-- The weights are the host's chain of the packed words, the scales and the zero points (again through an identity). -/
theorem wts_eq (c : Dev nD) : wts m c = weights (F := Ideal) (m ((c : Thread nD τ).loc main_arg1)) (m ((c : Thread nD τ).loc main_arg2)) (m ((c : Thread nD τ).loc main_arg3)) := by
  show StableHlo.after hostOps0 (fun b => m (c, b)) (Proc.devRef .tc main_v18) = _
  after_results
  rfl

/-- The bias is the argument. -/
theorem bias_eq (c : Dev nD) : bias m c = m ((c : Thread nD τ).loc main_arg4) := V_main_arg4 m c

/-- Row  s · 2048 + t  of the rows is vector (s, t) of the batch. -/
theorem rows_apply (c : Dev nD) (s : Fin 4) (t : Fin 2048) (r : Fin 8192) (k : Fin 4096) (hr : r.val = s.val * 2048 + t.val) :
    rows m c (ix2 r k) = batch m c (ix3 s t k) := by
  rw [rows_eq]
  refine shapeCast_apply (batch m c) shapeCasts_S4x2048x4096_S8192x4096 (ix2 r k) (ix3 s t k) ?_
  rw [Shape.rowMajor_val_three, Shape.rowMajor_val_two]
  show (s.val * 2048 + t.val) * 4096 + k.val = r.val * 4096 + k.val
  rw [hr]

/-! ## The program's result -/

/-- The result after the host's last line: the affine map of the batch under the host's weights. -/
theorem result_eq (c : Dev nD) :
    Pipeline.afterTail₀ cfgs (dats m) 0 (V0 m) [hostOps1] c main_v22
      = affine (batch m c) (weights (F := Ideal) (m ((c : Thread nD τ).loc main_arg1)) (m ((c : Thread nD τ).loc main_arg2)) (m ((c : Thread nD τ).loc main_arg3))) (m ((c : Thread nD τ).loc main_arg4)) := by
  unfold Pipeline.afterTail₀
  show StableHlo.after hostOps1 _ (Proc.devRef .tc main_v22) = _
  after_results
  rw [(Pipeline.withArrays_arr spec0 launch0.win.arr_inj c _ _ 3).trans (region_result m c)]
  funext i
  obtain ⟨s, t, o, rfl⟩ : ∃ (s : Fin 4) (t : Fin 2048) (o : Fin 16384), i = ix3 s t o := ⟨i 0, i 1, i 2, eq_ix3 i⟩
  have hs : s.val < 4 := s.isLt
  have ht : t.val < 2048 := t.isLt
  refine (shapeCast_apply _ shapeCasts_S8192x16384_S4x2048x16384 (ix3 s t o) (ix2 (⟨s.val * 2048 + t.val, by omega⟩ : Fin 8192) o) ?_).trans ?_
  · rw [Shape.rowMajor_val_three, Shape.rowMajor_val_two]
    rfl
  · rw [← wts_eq m c, ← bias_eq m c]
    exact affineRows_of_rows (batch m c) (rows m c) (wts m c) (bias m c) (fun s' t' r k hr => rows_apply m c s' t' r k hr) s t o _ rfl

/-- Every weakly fair execution of the program ends with its result at the affine map of the batch under the host's weights,
    and with its five arguments as launched. -/
theorem run : θ_run defs (onTc (τ := τ) (main (F := Ideal))) ⟨m, fun _ => 0, ρ⟩ fun r => ∀ c : Dev nD,
      r.2.mem ((c.tc : Thread nD τ).loc main_v22)
        = affine (batch m c) (weights (F := Ideal) (m ((c : Thread nD τ).loc main_arg1)) (m ((c : Thread nD τ).loc main_arg2)) (m ((c : Thread nD τ).loc main_arg3))) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v22 (Pipeline.mem_restRefs_of main_v22 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 2).trans (((dats m 0 c).arrAt_in 2 rfl _).trans ((A_eq m c 2).trans (V_main_arg4 m c)))⟩)
    (run_main m ρ)

end Cert.KernelIdeal.Whole

end
-- ==== Proof.RefValue.lean ====
/-
  What the reference's program leaves in its result, on the extended reals.

  Its last three operations contract the activations' last axis against the weights' last axis, repeat the bias along the two
  leading axes and add.  Read at an index (s, t, o) that is  Σ_k x[s, t, k] · W[o, k] + b[o] : the affine map of the batch, W
  being whatever the earlier operations made of the packed words, the scales and the zero points.
-/
import proofs.«414579_j7112465842827_1_alg».proof.Proof.Gen.ReferenceIdeal.Read
import proofs.«414579_j7112465842827_1_alg».proof.Proof.Affine

noncomputable section

open Idealize.ShloMosaic Idealize.ShloMosaic.ValueIdx
open scoped BigOperators

namespace Cert.ReferenceIdeal.Whole

open Cert.ReferenceIdeal Cert.ReferenceIdeal.Read Cert.Affine

/-- The reference's result is the affine map of the batch under the weights its earlier operations compute. -/
theorem result_is_affine (x0 : (⟨S4x2048x4096, .f32⟩ : BufTy).Contents (Elt Ideal)) (x1 : (⟨S16384x2048, .i32⟩ : BufTy).Contents (Elt Ideal))
    (x2 x3 x4 : (⟨S16384, .f32⟩ : BufTy).Contents (Elt Ideal)) :
    val_main_v21 (F := Ideal) x0 x1 x2 x3 x4 = affine x0 (val_main_v17 (F := Ideal) x1 x2 x3) x4 := by
  funext i
  have el : ∀ k : Fin 4096, lidx_main_v18 i k = ix3 (i 0) (i 1) k := fun k => funext fun a => by
    match a with
    | ⟨0, _⟩ => rfl
    | ⟨1, _⟩ => rfl
    | ⟨2, _⟩ => rfl
  have er : ∀ k : Fin 4096, ridx_main_v18 i k = ix2 (i 2) k := fun k => funext fun a => by
    match a with
    | ⟨0, _⟩ => rfl
    | ⟨1, _⟩ => rfl
  have eb : idx_main_v19 (idx_main_v20 i) = ix1 (i 2) := funext fun a => by
    match a with
    | ⟨0, _⟩ => rfl
  rw [val_main_v21_apply, val_main_v18_apply, val_main_v20_apply, val_main_v19_apply]
  simp only [el, er, eb]
  rfl

end Cert.ReferenceIdeal.Whole

end
-- ==== Proof.lean ====
/-
  The certificate: a 4-bit-quantized linear layer as a tiled kernel against its one-line reference.

  Both programs unpack each weight word into two 4-bit fields, scale and shift every row, and then apply the resulting
  [16384, 4096] matrix W to a [4, 2048] batch of 4096-vectors and add a bias:  out[s, t, o] = Σ_k x[s, t, k] · W[o, k] + b[o].
  The reference does it with one contraction over the whole batch.  The kernel's program flattens the batch to 8192 rows,
  narrows both operands to a shorter float format (the identity on the extended reals), computes the product tile by tile
  over an 8 × 32 grid — each tile a full-depth contraction into a zero accumulator plus the bias row — and splits the rows back.
  Tiling does not reorder any sum: every output entry is one grid point's single contraction over all 4096 columns, so the two
  results are the same sum term for term and no finiteness of the inputs is needed.  The weights are computed by the same chain
  of host operations in both programs and are carried as one unopened function.
  No rewrite of the idealization touched the kernel, so its preservation claim is trivial; the three frames are the generated
  frame certificates and the reference's generated run.
-/
import proofs.«414579_j7112465842827_1_alg».proof.Defs
import proofs.«414579_j7112465842827_1_alg».proof.Proof.Gen.Kernel
import proofs.«414579_j7112465842827_1_alg».proof.Proof.Gen.Kernel.Skeleton
import proofs.«414579_j7112465842827_1_alg».proof.Proof.Gen.Kernel.Launch
import proofs.«414579_j7112465842827_1_alg».proof.Proof.Gen.Kernel.Points
import proofs.«414579_j7112465842827_1_alg».proof.Proof.Gen.Kernel.Frame
import proofs.«414579_j7112465842827_1_alg».proof.Proof.Gen.KernelIdeal
import proofs.«414579_j7112465842827_1_alg».proof.Proof.Gen.KernelIdeal.Skeleton
import proofs.«414579_j7112465842827_1_alg».proof.Proof.Gen.KernelIdeal.Launch
import proofs.«414579_j7112465842827_1_alg».proof.Proof.Gen.KernelIdeal.Points
import proofs.«414579_j7112465842827_1_alg».proof.Proof.Gen.KernelIdeal.Frame
import proofs.«414579_j7112465842827_1_alg».proof.Proof.Gen.ReferenceIdeal
import proofs.«414579_j7112465842827_1_alg».proof.Proof.Gen.Pre_finite_inputs
import proofs.«414579_j7112465842827_1_alg».proof.Proof.Gen.ReferenceIdeal.Run
import proofs.«414579_j7112465842827_1_alg».proof.Proof.Gen.ReferenceIdeal.Read
import proofs.«414579_j7112465842827_1_alg».proof.Proof.KernelResult
import proofs.«414579_j7112465842827_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs compute their weights by the same operations in the same order. -/
theorem weights_same (x1 : (⟨Cert.ReferenceIdeal.S16384x2048, .i32⟩ : BufTy).Contents (Elt Ideal))
    (x2 x3 : (⟨Cert.ReferenceIdeal.S16384, .f32⟩ : BufTy).Contents (Elt Ideal)) :
    Cert.ReferenceIdeal.Read.val_main_v17 (F := Ideal) x1 x2 x3 = Cert.KernelIdeal.Whole.weights (F := Ideal) x1 x2 x3 := rfl

/-- On the extended reals both programs end with the affine map of the batch under those weights. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono
    (fun _ h c => ⟨(h c).1.trans ((Cert.ReferenceIdeal.Read.val_main_v21_eq _ _ _ _ _).trans ?_), (h c).2⟩)
    (Cert.ReferenceIdeal.Value.run (F := Ideal) m' ρ')
  rw [Cert.ReferenceIdeal.Whole.result_is_affine, weights_same, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
